-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part2 {F : FTy → Type} [FloatOps F] (main_arg8 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg5 : FVec F S128x128 .f32) (main_arg6 : FVec F S128 .f32) (main_arg7 : FVec F S128x128 .f32) (main_arg8 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x1 : Shape := ⟨2, ![1, 1]⟩
abbrev S2000x128 : Shape := ⟨2, ![2000, 128]⟩

abbrev nBuf : Space → Nat
  | .hbm => 68
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S1x1, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x1, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S2000x128, .f32⟩
  | .local _ .vmem, ⟨18, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S_S1x1 : S_.ShapeCasts S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .i1⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One graph-convolution layer, index by index, on the extended reals.

  For node features `X` and neighbour means `M` (both 100000 × 128), weights `Wl`, `Wr` (128 × 128, stored
  output-major: row `q` holds the coefficients of output column `q`) and a bias `b` (128), the layer's entry at
  node `p`, column `q` is

      (∑ₖ M[p,k] · Wl[q,k]) + b[q] + (∑ₖ X[p,k] · Wr[q,k]),

  with the grouping as written: the neighbour term and the bias are added first, the root term last. `prelu a` is
  the one-slope leaky rectifier `s ↦ s` if `s ≥ 0` else `a · s`, the comparison against the zero word.
-/
import Idealize.ShloMosaic.PureOps.Ideal
import Idealize.ShloMosaic.Lib.ValueIdx

noncomputable section

open scoped BigOperators

namespace Cert.Sage

open Idealize.ShloMosaic Idealize.ShloMosaic.ValueIdx

/-- A 100000 × 128 array of extended reals: node features, neighbour means, a layer's output. -/
abbrev Feat : Type := (⟨2, ![100000, 128]⟩ : Shape).Idx → EReal
/-- A 128 × 128 weight matrix, row `q` = output column `q`. -/
abbrev Wt : Type := (⟨2, ![128, 128]⟩ : Shape).Idx → EReal
/-- A bias vector. -/
abbrev Bias : Type := (⟨1, ![128]⟩ : Shape).Idx → EReal

/-- Row `p` of `A` against row `q` of `W`: one entry of `A · Wᵀ`, for a row block of any height `n`. -/
def rowDot {n : Nat} (A : (⟨2, ![n, 128]⟩ : Shape).Idx → EReal) (W : Wt) (p : Fin n) (q : Fin 128) : EReal :=
  ∑ k : Fin 128, A (ix2 p k) * W (ix2 q k)

/-- The layer's entry from the two row sums and the bias entry, grouped as both programs group it. -/
def combine (l bq r : EReal) : EReal := l + bq + r

/-- The one-slope leaky rectifier at one entry. -/
def prelu (a s : EReal) : EReal :=
  Scalar.select (Ideal.cmp .oge s (Ideal.ofBits .f32 0x00000000#32)) s (a * s)

/-- One layer without activation: `M · Wlᵀ + b + X · Wrᵀ`. -/
def conv (X M : Feat) (Wl : Wt) (b : Bias) (Wr : Wt) : Feat :=
  fun i => combine (rowDot M Wl (i 0) (i 1)) (b (ix1 (i 1))) (rowDot X Wr (i 0) (i 1))

/-- The first layer: the same followed by the rectifier of slope `a`. -/
def convAct (a : EReal) (X M : Feat) (Wl : Wt) (b : Bias) (Wr : Wt) : Feat :=
  fun i => prelu a (conv X M Wl b Wr i)

theorem conv_apply (X M : Feat) (Wl : Wt) (b : Bias) (Wr : Wt) (p : Fin 100000) (q : Fin 128) :
    conv X M Wl b Wr (ix2 p q) = combine (rowDot M Wl p q) (b (ix1 q)) (rowDot X Wr p q) := rfl

theorem convAct_apply (a : EReal) (X M : Feat) (Wl : Wt) (b : Bias) (Wr : Wt) (p : Fin 100000) (q : Fin 128) :
    convAct a X M Wl b Wr (ix2 p q) = prelu a (combine (rowDot M Wl p q) (b (ix1 q)) (rowDot X Wr p q)) := rfl

end Cert.Sage

end
-- ==== Proof.KernelPay.lean ====
/-
  The two kernel bodies at one entry of a row block, on the extended reals.

  A block holds 2000 rows. The body multiplies the block of neighbour means by the transposed left weights and the
  block of root features by the transposed right weights, each product accumulated into zeros, so entry (p, q) of
  either product is the plain sum over the 128 columns of row p of the block against row q of the weights; the
  changes of float format are the identity here. The bias row is broadcast down the block, and layer 1 applies the
  one-slope rectifier with the slope read from its 1 × 1 operand.
-/
import proofs.«180498_j5995774345966_1_alg».proof.Proof.Gen.KernelIdeal.Skeleton
import proofs.«180498_j5995774345966_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Sage

/-! ## The block product's operand indices -/

theorem lhs_blk_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_blk_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_blk_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_blk_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A row block times a transposed weight matrix, into zeros, at entry (p, q): row p against row q. -/
theorem matmulT_apply (A : FVec Ideal S2000x128 .bf16) (W : FVec Ideal S128x128 .bf16) (p : Fin 2000) (q : Fin 128) :
    matmul dot_S2000x128_S128x128_S2000x128_1_0_0_1_n_n none A (transpose S128x128 [1, 0] W transposes_S128x128_p1_0_S128x128)
        (constant S2000x128 .f32 0x00000000#32) (ix2 p q)
      = rowDot (n := 2000) A W p q := by
  simp only [matmul]
  rw [Ideal.matmul_constant_zero_apply, ← Equiv.sum_comp (contrEquiv1 dot_S2000x128_S128x128_S2000x128_1_0_0_1_n_n 128 rfl rfl).symm]
  unfold rowDot
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_blk_0 _ _
    | ⟨1, _⟩ => exact (lhs_blk_1 _ _).trans hk)
  rw [el]
  refine congrArg (A (ix2 p k) * ·) ?_
  exact transpose_apply [1, 0] W transposes_S128x128_p1_0_S128x128 _ (ix2 q k) (fun b => match b with
    | ⟨0, _⟩ => by
      show k.val = _
      exact ((rhs_blk_0 (ix2 p q) _).trans hk).symm
    | ⟨1, _⟩ => by
      show q.val = _
      exact (rhs_blk_1 (ix2 p q) _).symm)

/-- The bias row broadcast down the block, at entry (p, q): the row's entry q. -/
theorem biasRow_apply (b : FVec Ideal S1x128 .f32) (p : Fin 2000) (q : Fin 128) :
    broadcastTo S2000x128 (shapeCast S1x128 b shapeCasts_S1x128_S1x128) broadcasts_S1x128_S2000x128 (ix2 p q) = b (ix2 0 q) := by
  rw [shapeCast_self]
  exact broadcastTo_apply b broadcasts_S1x128_S2000x128 (ix2 p q) (ix2 0 q) (fun a => match a with
    | ⟨0, _⟩ => rfl
    | ⟨1, _⟩ => rfl)

/-- The slope read out of its 1 × 1 operand. -/
theorem slope_eq (a : FVec Ideal S1x1 .f32) : extractAt ![0, 0] a inpos_S1x1_p0_0 = a (ix2 0 0) := by
  unfold extractAt
  exact congrArg a (funext fun d => match d with
    | ⟨0, _⟩ => rfl
    | ⟨1, _⟩ => rfl)

/-! ## The payloads -/

/-- Layer 1's stored value at entry (p, q) of the block. -/
theorem pay0_apply (x mn : Vec Ideal S2000x128 .f32) (wl wr : Vec Ideal S128x128 .f32) (b : Vec Ideal S1x128 .f32) (a : Vec Ideal S1x1 .f32)
    (p : Fin 2000) (q : Fin 128) :
    k0_pay1 (F := Ideal) x mn wl wr b a (ix2 p q)
      = prelu (a (ix2 0 0)) (combine (rowDot (n := 2000) mn wl p q) (b (ix2 0 q)) (rowDot (n := 2000) x wr p q)) := by
  unfold k0_pay1
  simp only [select_apply, cmpf_apply, mulf_apply, addf_apply, broadcast_apply]
  rw [matmulT_apply, matmulT_apply, biasRow_apply, slope_eq, shapeCast_self]
  rfl

/-- Layer 2's stored value at entry (p, q) of the block. -/
theorem pay1_apply (x mn : Vec Ideal S2000x128 .f32) (wl wr : Vec Ideal S128x128 .f32) (b : Vec Ideal S1x128 .f32)
    (p : Fin 2000) (q : Fin 128) :
    k1_pay1 (F := Ideal) x mn wl wr b (ix2 p q)
      = combine (rowDot (n := 2000) mn wl p q) (b (ix2 0 q)) (rowDot (n := 2000) x wr p q) := by
  unfold k1_pay1
  simp only [addf_apply]
  rw [matmulT_apply, matmulT_apply, biasRow_apply, shapeCast_self, shapeCast_self]
  rfl

end Cert.KernelIdeal.Pay

end
-- ==== Proof.KernelRegion0.lean ====
/-
  Region 0 (layer 1 with the rectifier) as ONE function of the arrays it finds at entry.

  The grid has 50 points. Point t reads rows 2000·t … 2000·t + 1999 of the feature array and of the neighbour-mean
  array, the whole of both weight matrices, the bias row and the slope, and writes back rows 2000·t … 2000·t + 1999 of the
  result. So entry (r, q) of the result is written by point r / 2000 and holds the layer's formula at (r, q) over the
  whole entry arrays; the 50 row blocks cover the result array.
-/
import proofs.«180498_j5995774345966_1_alg».proof.Proof.Gen.KernelIdeal.Frame
import proofs.«180498_j5995774345966_1_alg».proof.Proof.KernelPay
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.KernelIdeal.Pay Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The entry arrays and the blocks a point reads, at their literal types -/

abbrev aX (c : Dev nD) : Feat := V c main_arg0
abbrev aM (c : Dev nD) : Feat := V c main_v22
abbrev aWl (c : Dev nD) : Wt := V c main_arg2
abbrev aB (c : Dev nD) : (⟨2, ![1, 128]⟩ : Shape).Idx → EReal := V c main_v23
abbrev aWr (c : Dev nD) : Wt := V c main_arg4
abbrev aA (c : Dev nD) : (⟨2, ![1, 1]⟩ : Shape).Idx → EReal := V c main_v24

abbrev bX (c : Dev nD) (t : Fin cfg0.N) : Vec Ideal S2000x128 .f32 := iblk0 V c 0 t
abbrev bM (c : Dev nD) (t : Fin cfg0.N) : Vec Ideal S2000x128 .f32 := iblk0 V c 1 t
abbrev bWl (c : Dev nD) (t : Fin cfg0.N) : Vec Ideal S128x128 .f32 := iblk0 V c 2 t
abbrev bB (c : Dev nD) (t : Fin cfg0.N) : Vec Ideal S1x128 .f32 := iblk0 V c 3 t
abbrev bWr (c : Dev nD) (t : Fin cfg0.N) : Vec Ideal S128x128 .f32 := iblk0 V c 4 t
abbrev bA (c : Dev nD) (t : Fin cfg0.N) : Vec Ideal S1x1 .f32 := iblk0 V c 5 t

/-- Row p of point t's feature block is row 2000·t + p of the feature array. -/
theorem bX_apply (c : Dev nD) (t : Fin cfg0.N) (p : Fin 2000) (k : Fin 128) (r : Fin 100000) (hr : r.val = 2000 * t.val + p.val) :
    bX V c t (ix2 p k) = aX V c (ix2 r k) := by
  have hi := idx_facts t
  unfold bX iblk0
  rw [View.read_apply]
  show V c main_arg0 _ = V c main_arg0 _
  congr 1
  funext a
  apply Fin.ext
  match a with
  | ⟨0, _⟩ => show win0_0.index t (0 : Fin 2) * 2000 + 1 * p.val = r.val; rw [hi.1, hr]; omega
  | ⟨1, _⟩ => show win0_0.index t (1 : Fin 2) * 128 + 1 * k.val = k.val; rw [hi.2.1]; omega

/-- Row p of point t's neighbour-mean block is row 2000·t + p of the neighbour-mean array. -/
theorem bM_apply (c : Dev nD) (t : Fin cfg0.N) (p : Fin 2000) (k : Fin 128) (r : Fin 100000) (hr : r.val = 2000 * t.val + p.val) :
    bM V c t (ix2 p k) = aM V c (ix2 r k) := by
  have hi := idx_facts t
  unfold bM iblk0
  rw [View.read_apply]
  show V c main_v22 _ = V c main_v22 _
  congr 1
  funext a
  apply Fin.ext
  match a with
  | ⟨0, _⟩ => show win0_1.index t (0 : Fin 2) * 2000 + 1 * p.val = r.val; rw [hi.2.2.1, hr]; omega
  | ⟨1, _⟩ => show win0_1.index t (1 : Fin 2) * 128 + 1 * k.val = k.val; rw [hi.2.2.2.1]; omega

/-- The left weights' block is the whole matrix at every point. -/
theorem bWl_eq (c : Dev nD) (t : Fin cfg0.N) : bWl V c t = aWl V c := by
  have hi := idx_facts t
  funext x
  unfold bWl iblk0
  rw [View.read_apply]
  show V c main_arg2 _ = V c main_arg2 _
  congr 1
  funext a
  apply Fin.ext
  match a with
  | ⟨0, _⟩ => show win0_2.index t (0 : Fin 2) * 128 + 1 * (x 0).val = (x 0).val; rw [hi.2.2.2.2.1]; omega
  | ⟨1, _⟩ => show win0_2.index t (1 : Fin 2) * 128 + 1 * (x 1).val = (x 1).val; rw [hi.2.2.2.2.2.1]; omega

/-- The bias row's block is the whole row at every point. -/
theorem bB_eq (c : Dev nD) (t : Fin cfg0.N) : bB V c t = aB V c := by
  have hi := idx_facts t
  funext x
  unfold bB iblk0
  rw [View.read_apply]
  show V c main_v23 _ = V c main_v23 _
  congr 1
  funext a
  apply Fin.ext
  match a with
  | ⟨0, _⟩ => show win0_3.index t (0 : Fin 2) * 1 + 1 * (x 0).val = (x 0).val; rw [hi.2.2.2.2.2.2.1]; omega
  | ⟨1, _⟩ => show win0_3.index t (1 : Fin 2) * 128 + 1 * (x 1).val = (x 1).val; rw [hi.2.2.2.2.2.2.2.1]; omega

/-- The right weights' block is the whole matrix at every point. -/
theorem bWr_eq (c : Dev nD) (t : Fin cfg0.N) : bWr V c t = aWr V c := by
  have hi := idx_facts t
  funext x
  unfold bWr iblk0
  rw [View.read_apply]
  show V c main_arg4 _ = V c main_arg4 _
  congr 1
  funext a
  apply Fin.ext
  match a with
  | ⟨0, _⟩ => show win0_4.index t (0 : Fin 2) * 128 + 1 * (x 0).val = (x 0).val; rw [hi.2.2.2.2.2.2.2.2.1]; omega
  | ⟨1, _⟩ => show win0_4.index t (1 : Fin 2) * 128 + 1 * (x 1).val = (x 1).val; rw [hi.2.2.2.2.2.2.2.2.2.1]; omega

/-- The slope's block is the whole 1 × 1 array at every point. -/
theorem bA_eq (c : Dev nD) (t : Fin cfg0.N) : bA V c t = aA V c := by
  have hi := idx_facts t
  funext x
  unfold bA iblk0
  rw [View.read_apply]
  show V c main_v24 _ = V c main_v24 _
  congr 1
  funext a
  apply Fin.ext
  match a with
  | ⟨0, _⟩ => show win0_5.index t (0 : Fin 2) * 1 + 1 * (x 0).val = (x 0).val; rw [hi.2.2.2.2.2.2.2.2.2.2.1]; omega
  | ⟨1, _⟩ => show win0_5.index t (1 : Fin 2) * 1 + 1 * (x 1).val = (x 1).val; rw [hi.2.2.2.2.2.2.2.2.2.2.2.1]; omega

/-! ## The region's result as one function -/

/-- What the result array ends holding: the layer over the WHOLE entry arrays, rectified with the slope entry. -/
def G (c : Dev nD) : Feat :=
  convAct (aA V c (ix2 (0 : Fin 1) (0 : Fin 1))) (aX V c) (aM V c) (aWl V c) (fun j => aB V c (ix2 (0 : Fin 1) (j 0 : Fin 128))) (aWr V c)

/-- Entry (p, q) of what point t stores is the layer at row 2000·t + p, column q. -/
theorem entry (c : Dev nD) (t : Fin cfg0.N) (p : Fin 2000) (q : Fin 128) (r : Fin 100000) (hr : r.val = 2000 * t.val + p.val) :
    k0_pay1 (F := Ideal) (bX V c t) (bM V c t) (bWl V c t) (bWr V c t) (bB V c t) (bA V c t) (ix2 p q) = G V c (ix2 r q) := by
  rw [pay0_apply, bWl_eq, bWr_eq, bB_eq, bA_eq]
  unfold G
  rw [convAct_apply]
  unfold rowDot
  simp only [bX_apply V c t p _ r hr, bM_apply V c t p _ r hr]

/-- WHAT POINT t WRITES BACK is block t of `G`. -/
theorem flushed_eq (c : Dev nD) (t : Fin cfg0.N) :
    (dat0 V c).flushed 6 t = ((cfg0.win 6).blk t).view.read (Elt Ideal) (G V c) := by
  have hi := idx_facts t
  have ht : t.val < 50 := lt_of_lt_of_eq t.isLt N_0
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz, View.ld_unit_zero (S := S1x1) hz]
  funext j
  rw [View.read_apply]
  have hj0 : (j 0).val < 2000 := (j 0).isLt
  have he : ((cfg0.win 6).blk t).view.emb j = ix2 (⟨2000 * t.val + (j 0).val, by omega⟩ : Fin 100000) (j 1 : Fin 128) := by
    funext a
    apply Fin.ext
    match a with
    | ⟨0, _⟩ => show win0_6.index t (0 : Fin 2) * 2000 + 1 * (j 0).val = 2000 * t.val + (j 0).val; rw [hi.2.2.2.2.2.2.2.2.2.2.2.2.1]; omega
    | ⟨1, _⟩ => show win0_6.index t (1 : Fin 2) * 128 + 1 * (j 1).val = (j 1).val; rw [hi.2.2.2.2.2.2.2.2.2.2.2.2.2]; omega
  show k0_pay1 (F := Ideal) (bX V c t) (bM V c t) (bWl V c t) (bWr V c t) (bB V c t) (bA V c t) j = G V c (((cfg0.win 6).blk t).view.emb j)
  rw [he]
  exact (congrArg (k0_pay1 (F := Ideal) (bX V c t) (bM V c t) (bWl V c t) (bWr V c t) (bB V c t) (bA V c t)) (eq_ix2 j)).trans
    (entry V c t (j 0) (j 1) ⟨2000 * t.val + (j 0).val, by omega⟩ rfl)

/-- An index of the result array is in point t's block iff each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v25).slice (win0_6.rect t)).set ↔ _
  rw [View.set_slice_whole, Rect.mem_set_unit]
  exact Iff.rfl

/-- Every entry of the result array is in the block of the point its row selects. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 2000 < cfg0.N := lt_of_lt_of_eq (by omega : (i 0).val / 2000 < 50) N_0.symm
  have hf := idx_facts ⟨(i 0).val / 2000, hN⟩
  refine ⟨⟨(i 0).val / 2000, hN⟩, flush0_6 _, ?_⟩
  rw [mem_blk]
  intro a
  match a with
  | ⟨0, _⟩ =>
    show win0_6.index ⟨(i 0).val / 2000, hN⟩ (0 : Fin 2) * 2000 ≤ (i 0).val ∧ (i 0).val < win0_6.index ⟨(i 0).val / 2000, hN⟩ (0 : Fin 2) * 2000 + 2000
    rw [hf.2.2.2.2.2.2.2.2.2.2.2.2.1]
    show (i 0).val / 2000 * 2000 ≤ (i 0).val ∧ (i 0).val < (i 0).val / 2000 * 2000 + 2000
    omega
  | ⟨1, _⟩ =>
    show win0_6.index ⟨(i 0).val / 2000, hN⟩ (1 : Fin 2) * 128 ≤ (i 1).val ∧ (i 1).val < win0_6.index ⟨(i 0).val / 2000, hN⟩ (1 : Fin 2) * 128 + 128
    rw [hf.2.2.2.2.2.2.2.2.2.2.2.2.2]
    omega

/-- THE RESULT ARRAY after the region: `G` of the entry arrays. -/
theorem final (c : Dev nD) : (dat0 V c).arrAt 6 cfg0.N = G V c :=
  (dat0 V c).arrAt_eq_of_cover 6 (G V c) (fun t _ => flushed_eq V c t) (cover)

end Cert.KernelIdeal.Region0

end
-- ==== Proof.KernelRegion1.lean ====
/-
  Region 1 (layer 2, no activation) as ONE function of the arrays it finds at entry.

  The grid has 50 points. Point t reads rows 2000·t … 2000·t + 1999 of the feature array and of the neighbour-mean
  array, the whole of both weight matrices and the bias row, and writes back rows 2000·t … 2000·t + 1999 of the
  result. So entry (r, q) of the result is written by point r / 2000 and holds the layer's formula at (r, q) over the
  whole entry arrays; the 50 row blocks cover the result array.
-/
import proofs.«180498_j5995774345966_1_alg».proof.Proof.Gen.KernelIdeal.Frame
import proofs.«180498_j5995774345966_1_alg».proof.Proof.KernelPay
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.KernelIdeal.Pay Cert.Sage
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked windows sit at block row t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The entry arrays and the blocks a point reads, at their literal types -/

abbrev aX (c : Dev nD) : Feat := V c main_v25
abbrev aM (c : Dev nD) : Feat := V c main_v44
abbrev aWl (c : Dev nD) : Wt := V c main_arg5
abbrev aB (c : Dev nD) : (⟨2, ![1, 128]⟩ : Shape).Idx → EReal := V c main_v45
abbrev aWr (c : Dev nD) : Wt := V c main_arg7

abbrev bX (c : Dev nD) (t : Fin cfg1.N) : Vec Ideal S2000x128 .f32 := iblk1 V c 0 t
abbrev bM (c : Dev nD) (t : Fin cfg1.N) : Vec Ideal S2000x128 .f32 := iblk1 V c 1 t
abbrev bWl (c : Dev nD) (t : Fin cfg1.N) : Vec Ideal S128x128 .f32 := iblk1 V c 2 t
abbrev bB (c : Dev nD) (t : Fin cfg1.N) : Vec Ideal S1x128 .f32 := iblk1 V c 3 t
abbrev bWr (c : Dev nD) (t : Fin cfg1.N) : Vec Ideal S128x128 .f32 := iblk1 V c 4 t

/-- Row p of point t's feature block is row 2000·t + p of the feature array. -/
theorem bX_apply (c : Dev nD) (t : Fin cfg1.N) (p : Fin 2000) (k : Fin 128) (r : Fin 100000) (hr : r.val = 2000 * t.val + p.val) :
    bX V c t (ix2 p k) = aX V c (ix2 r k) := by
  have hi := idx_facts t
  unfold bX iblk1
  rw [View.read_apply]
  show V c main_v25 _ = V c main_v25 _
  congr 1
  funext a
  apply Fin.ext
  match a with
  | ⟨0, _⟩ => show win1_0.index t (0 : Fin 2) * 2000 + 1 * p.val = r.val; rw [hi.1, hr]; omega
  | ⟨1, _⟩ => show win1_0.index t (1 : Fin 2) * 128 + 1 * k.val = k.val; rw [hi.2.1]; omega

/-- Row p of point t's neighbour-mean block is row 2000·t + p of the neighbour-mean array. -/
theorem bM_apply (c : Dev nD) (t : Fin cfg1.N) (p : Fin 2000) (k : Fin 128) (r : Fin 100000) (hr : r.val = 2000 * t.val + p.val) :
    bM V c t (ix2 p k) = aM V c (ix2 r k) := by
  have hi := idx_facts t
  unfold bM iblk1
  rw [View.read_apply]
  show V c main_v44 _ = V c main_v44 _
  congr 1
  funext a
  apply Fin.ext
  match a with
  | ⟨0, _⟩ => show win1_1.index t (0 : Fin 2) * 2000 + 1 * p.val = r.val; rw [hi.2.2.1, hr]; omega
  | ⟨1, _⟩ => show win1_1.index t (1 : Fin 2) * 128 + 1 * k.val = k.val; rw [hi.2.2.2.1]; omega

/-- The left weights' block is the whole matrix at every point. -/
theorem bWl_eq (c : Dev nD) (t : Fin cfg1.N) : bWl V c t = aWl V c := by
  have hi := idx_facts t
  funext x
  unfold bWl iblk1
  rw [View.read_apply]
  show V c main_arg5 _ = V c main_arg5 _
  congr 1
  funext a
  apply Fin.ext
  match a with
  | ⟨0, _⟩ => show win1_2.index t (0 : Fin 2) * 128 + 1 * (x 0).val = (x 0).val; rw [hi.2.2.2.2.1]; omega
  | ⟨1, _⟩ => show win1_2.index t (1 : Fin 2) * 128 + 1 * (x 1).val = (x 1).val; rw [hi.2.2.2.2.2.1]; omega

/-- The bias row's block is the whole row at every point. -/
theorem bB_eq (c : Dev nD) (t : Fin cfg1.N) : bB V c t = aB V c := by
  have hi := idx_facts t
  funext x
  unfold bB iblk1
  rw [View.read_apply]
  show V c main_v45 _ = V c main_v45 _
  congr 1
  funext a
  apply Fin.ext
  match a with
  | ⟨0, _⟩ => show win1_3.index t (0 : Fin 2) * 1 + 1 * (x 0).val = (x 0).val; rw [hi.2.2.2.2.2.2.1]; omega
  | ⟨1, _⟩ => show win1_3.index t (1 : Fin 2) * 128 + 1 * (x 1).val = (x 1).val; rw [hi.2.2.2.2.2.2.2.1]; omega

/-- The right weights' block is the whole matrix at every point. -/
theorem bWr_eq (c : Dev nD) (t : Fin cfg1.N) : bWr V c t = aWr V c := by
  have hi := idx_facts t
  funext x
  unfold bWr iblk1
  rw [View.read_apply]
  show V c main_arg7 _ = V c main_arg7 _
  congr 1
  funext a
  apply Fin.ext
  match a with
  | ⟨0, _⟩ => show win1_4.index t (0 : Fin 2) * 128 + 1 * (x 0).val = (x 0).val; rw [hi.2.2.2.2.2.2.2.2.1]; omega
  | ⟨1, _⟩ => show win1_4.index t (1 : Fin 2) * 128 + 1 * (x 1).val = (x 1).val; rw [hi.2.2.2.2.2.2.2.2.2.1]; omega

/-! ## The region's result as one function -/

/-- What the result array ends holding: the layer over the WHOLE entry arrays. -/
def G (c : Dev nD) : Feat :=
  conv (aX V c) (aM V c) (aWl V c) (fun j => aB V c (ix2 (0 : Fin 1) (j 0 : Fin 128))) (aWr V c)

/-- Entry (p, q) of what point t stores is the layer at row 2000·t + p, column q. -/
theorem entry (c : Dev nD) (t : Fin cfg1.N) (p : Fin 2000) (q : Fin 128) (r : Fin 100000) (hr : r.val = 2000 * t.val + p.val) :
    k1_pay1 (F := Ideal) (bX V c t) (bM V c t) (bWl V c t) (bWr V c t) (bB V c t) (ix2 p q) = G V c (ix2 r q) := by
  rw [pay1_apply, bWl_eq, bWr_eq, bB_eq]
  unfold G
  rw [conv_apply]
  unfold rowDot
  simp only [bX_apply V c t p _ r hr, bM_apply V c t p _ r hr]

/-- WHAT POINT t WRITES BACK is block t of `G`. -/
theorem flushed_eq (c : Dev nD) (t : Fin cfg1.N) :
    (dat1 V c).flushed 5 t = ((cfg1.win 5).blk t).view.read (Elt Ideal) (G V c) := by
  have hi := idx_facts t
  have ht : t.val < 50 := lt_of_lt_of_eq t.isLt N_1
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  rw [View.read_apply]
  have hj0 : (j 0).val < 2000 := (j 0).isLt
  have he : ((cfg1.win 5).blk t).view.emb j = ix2 (⟨2000 * t.val + (j 0).val, by omega⟩ : Fin 100000) (j 1 : Fin 128) := by
    funext a
    apply Fin.ext
    match a with
    | ⟨0, _⟩ => show win1_5.index t (0 : Fin 2) * 2000 + 1 * (j 0).val = 2000 * t.val + (j 0).val; rw [hi.2.2.2.2.2.2.2.2.2.2.1]; omega
    | ⟨1, _⟩ => show win1_5.index t (1 : Fin 2) * 128 + 1 * (j 1).val = (j 1).val; rw [hi.2.2.2.2.2.2.2.2.2.2.2]; omega
  show k1_pay1 (F := Ideal) (bX V c t) (bM V c t) (bWl V c t) (bWr V c t) (bB V c t) j = G V c (((cfg1.win 5).blk t).view.emb j)
  rw [he]
  exact (congrArg (k1_pay1 (F := Ideal) (bX V c t) (bM V c t) (bWl V c t) (bWr V c t) (bB V c t)) (eq_ix2 j)).trans
    (entry V c t (j 0) (j 1) ⟨2000 * t.val + (j 0).val, by omega⟩ rfl)

/-- An index of the result array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v46).slice (win1_5.rect t)).set ↔ _
  rw [View.set_slice_whole, Rect.mem_set_unit]
  exact Iff.rfl

/-- Every entry of the result array is in the block of the point its row selects. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : (i 0).val / 2000 < cfg1.N := lt_of_lt_of_eq (by omega : (i 0).val / 2000 < 50) N_1.symm
  have hf := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [hf.2.2.2.2.2.2.2.2.2.2.1]
    show (i 0).val / 2000 * 2000 ≤ (i 0).val ∧ (i 0).val < (i 0).val / 2000 * 2000 + 2000
    omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [hf.2.2.2.2.2.2.2.2.2.2.2]
    omega

/-- THE RESULT ARRAY after the region: `G` of the entry arrays. -/
theorem final (c : Dev nD) : (dat1 V c).arrAt 5 cfg1.N = G V c :=
  (dat1 V c).arrAt_eq_of_cover 5 (G V c) (fun t _ => flushed_eq V c t) (cover)

end Cert.KernelIdeal.Region1

end
-- ==== Proof.Mean.lean ====
/-
  The neighbour mean both programs compute on the host, as ONE function of the feature array and the edge list,
  and the two-layer network's result as a function of the nine arguments.

  `meanAgg X ei`: gather row `src[e]` of `X` for every edge `e` (a negative endpoint wraps by the node count
  first), add it into row `dst[e]` of a zero array, and divide row `i` by `max (in-degree i) 1`. Nothing below ever
  opens it: both programs apply the same chain of host operations, so it is carried as one opaque function and only
  the values going into it are compared.

  `out`: layer 2 without activation over `h` and its neighbour mean, where `h` is layer 1 with the one-slope
  rectifier over the input features and their neighbour mean.
-/
import proofs.«180498_j5995774345966_1_alg».proof.ReferenceIdeal
import proofs.«180498_j5995774345966_1_alg».proof.Proof.Gen.ReferenceIdeal
import proofs.«180498_j5995774345966_1_alg».proof.Proof.Spec

noncomputable section

namespace Cert.Sage

open Idealize.ShloMosaic Idealize.ShloMosaic.ValueIdx Cert.ReferenceIdeal
open Cert.ReferenceIdeal.Facts₀ Cert.ReferenceIdeal.Facts

variable {F : FTy → Type} [FloatOps F]

/-- The mean over in-neighbours, row by row, as the host computes it. -/
def meanAgg (X : (⟨S100000x128, .f32⟩ : BufTy).Contents (Elt F)) (ei : (⟨S2x1600000, .i32⟩ : BufTy).Contents (Elt F)) :
    (⟨S100000x128, .f32⟩ : BufTy).Contents (Elt F) :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (Host.gather gather_S100000x128_S1600000x1_S1600000x128_1_0_n_n_0_1_1128 X (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (broadcastInDim S1600000 ![] bcast_S_S1600000 (constant S_ .f32 0x3F800000#32))) (broadcastInDim S100000 ![] bcast_S_S100000 (constant S_ .f32 0x3F800000#32)))))

/-- The hidden features: layer 1 with the rectifier of slope `x8`. -/
def hidden (x0 : Feat) (x1 : (⟨S2x1600000, .i32⟩ : BufTy).Contents (Elt Ideal)) (x2 : Wt) (x3 : Bias) (x4 : Wt)
    (x8 : (⟨0, ![]⟩ : Shape).Idx → EReal) : Feat :=
  convAct (x8 ix0) x0 (meanAgg (F := Ideal) x0 x1) x2 x3 x4

/-- The network's result: layer 2 over the hidden features and their neighbour mean. -/
def out (x0 : Feat) (x1 : (⟨S2x1600000, .i32⟩ : BufTy).Contents (Elt Ideal)) (x2 : Wt) (x3 : Bias) (x4 x5 : Wt) (x6 : Bias) (x7 : Wt)
    (x8 : (⟨0, ![]⟩ : Shape).Idx → EReal) : Feat :=
  conv (hidden x0 x1 x2 x3 x4 x8) (meanAgg (F := Ideal) (hidden x0 x1 x2 x3 x4 x8) x1) x5 x6 x7

end Cert.Sage

end
-- ==== Proof.KernelValue.lean ====
/-
  The idealized kernel program's result as a function of its nine arguments.

  Reading backwards from the return: the result array is region 1's result array at region 1's exit, which is
  layer 2 over the arrays region 1 finds at entry. Of those, the features are region 0's result array (no host
  operation between the regions writes it), the neighbour mean is the host's mean aggregation of those features over
  the edge list (the edge endpoints computed before region 0 and untouched since), and the weights and the bias are
  the arguments, the bias reshaped to a row. Region 0's result is layer 1 with the rectifier over the arguments and
  the host's mean aggregation of the input features, the bias and the slope reshaped. Together: `Cert.Sage.out`.
-/
import proofs.«180498_j5995774345966_1_alg».proof.Proof.KernelRun
import proofs.«180498_j5995774345966_1_alg».proof.Proof.KernelRegion0
import proofs.«180498_j5995774345966_1_alg».proof.Proof.KernelRegion1
import proofs.«180498_j5995774345966_1_alg».proof.Proof.Mean
import Idealize.ShloMosaic.Lib.StableHlo.Run

set_option maxRecDepth 16384

noncomputable section

namespace Cert.KernelIdeal.Whole

open Cert.KernelIdeal Cert.KernelIdeal.Gen Cert.Sage
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## Reshapes read at an index -/

/-- A vector of 128 reshaped to a 1 × 128 row, read along the row, is the vector. -/
theorem row_of_vec (b : (⟨1, ![128]⟩ : Shape).Idx → EReal) (h : (⟨1, ![128]⟩ : Shape).ShapeCasts ⟨2, ![1, 128]⟩) :
    (fun j : (⟨1, ![128]⟩ : Shape).Idx => shapeCast (⟨2, ![1, 128]⟩ : Shape) b h (ix2 (0 : Fin 1) (j 0 : Fin 128))) = b := by
  funext j
  refine shapeCast_apply b h (ix2 (0 : Fin 1) (j 0 : Fin 128)) j ?_
  rw [Shape.rowMajor_val_one, Shape.rowMajor_val_two]
  show (j 0).val = 0 * 128 + (j 0).val
  omega

/-- A scalar reshaped to 1 × 1, read anywhere, is the scalar. -/
theorem cell_of_scalar (x : (⟨0, ![]⟩ : Shape).Idx → EReal) (h : (⟨0, ![]⟩ : Shape).ShapeCasts ⟨2, ![1, 1]⟩) (j : (⟨2, ![1, 1]⟩ : Shape).Idx) :
    shapeCast (⟨2, ![1, 1]⟩ : Shape) x h j = x ix0 := by
  unfold shapeCast
  exact congrArg x (funext fun a => a.elim0)

/-! ## What region 0 finds at entry: the first host stretch over the launch memory -/

theorem entry0_x (c : Dev nD) : Region0.aX (V1 m ρ) c = (m ((c : Thread nD τ).loc main_arg0)) := by
  show StableHlo.after hostOps0 (W0 m ρ c) (Proc.devRef .tc main_arg0) = _
  after_results
theorem entry0_wl (c : Dev nD) : Region0.aWl (V1 m ρ) c = (m ((c : Thread nD τ).loc main_arg2)) := by
  show StableHlo.after hostOps0 (W0 m ρ c) (Proc.devRef .tc main_arg2) = _
  after_results
theorem entry0_wr (c : Dev nD) : Region0.aWr (V1 m ρ) c = (m ((c : Thread nD τ).loc main_arg4)) := by
  show StableHlo.after hostOps0 (W0 m ρ c) (Proc.devRef .tc main_arg4) = _
  after_results
theorem entry0_b (c : Dev nD) : Region0.aB (V1 m ρ) c = shapeCast S1x128 (m ((c : Thread nD τ).loc main_arg3)) shapeCasts_S128_S1x128 := by
  show StableHlo.after hostOps0 (W0 m ρ c) (Proc.devRef .tc main_v23) = _
  after_results
  rfl
theorem entry0_a (c : Dev nD) : Region0.aA (V1 m ρ) c = shapeCast S1x1 (m ((c : Thread nD τ).loc main_arg8)) shapeCasts_S_S1x1 := by
  show StableHlo.after hostOps0 (W0 m ρ c) (Proc.devRef .tc main_v24) = _
  after_results
  rfl
set_option maxHeartbeats 1000000 in
/-- The neighbour mean region 0 reads is the host's mean aggregation of the input features. -/
theorem entry0_m (c : Dev nD) : Region0.aM (V1 m ρ) c = meanAgg (F := Ideal) (m ((c : Thread nD τ).loc main_arg0)) (m ((c : Thread nD τ).loc main_arg1)) := by
  show StableHlo.after hostOps0 (W0 m ρ c) (Proc.devRef .tc main_v22) = _
  after_results_simp
  unfold meanAgg
  rfl

/-- Region 0's result array: the hidden features. -/
theorem hidden_eq (c : Dev nD) :
    Region0.G (V1 m ρ) c = Cert.Sage.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) := by
  unfold Region0.G Cert.Sage.hidden
  rw [entry0_x, entry0_wl, entry0_wr, entry0_m, entry0_b, entry0_a, row_of_vec, cell_of_scalar]

/-! ## What region 1 finds at entry: the second host stretch over region 0's exit -/

/-- The edge sources, computed before region 0, are still there at region 0's exit. -/
theorem exit0_src (c : Dev nD) : W2 m ρ c (Proc.devRef .tc main_v1)
    = shapeCast S1600000 (extractStridedSlice S1x1600000 ![0, 0] (m ((c : Thread nD τ).loc main_arg1)) slices_S2x1600000_S1x1600000_0_0) shapeCasts_S1x1600000_S1600000 := by
  refine (W2_of_ne m ρ c main_v1 (by decide)).trans ?_
  show StableHlo.after hostOps0 (W0 m ρ c) (Proc.devRef .tc main_v1) = _
  after_results
  rfl
/-- So are the edge destinations. -/
theorem exit0_dst (c : Dev nD) : W2 m ρ c (Proc.devRef .tc main_v3)
    = shapeCast S1600000 (extractStridedSlice S1x1600000 ![1, 0] (m ((c : Thread nD τ).loc main_arg1)) slices_S2x1600000_S1x1600000_1_0) shapeCasts_S1x1600000_S1600000 := by
  refine (W2_of_ne m ρ c main_v3 (by decide)).trans ?_
  show StableHlo.after hostOps0 (W0 m ρ c) (Proc.devRef .tc main_v3) = _
  after_results
  rfl
/-- Region 0's result array at its exit. -/
theorem exit0_h (c : Dev nD) : W2 m ρ c (Proc.devRef .tc main_v25) = Region0.G (V1 m ρ) c :=
  (W2_arr m ρ c 6).trans (Region0.final (V1 m ρ) c)
/-- An argument region 0 does not window is at its exit what the launch gave. -/
theorem exit0_arg5 (c : Dev nD) : W2 m ρ c (Proc.devRef .tc main_arg5) = (m ((c : Thread nD τ).loc main_arg5)) := by
  refine (W2_of_ne m ρ c main_arg5 (by decide)).trans ?_
  show StableHlo.after hostOps0 (W0 m ρ c) (Proc.devRef .tc main_arg5) = _
  after_results
theorem exit0_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results
theorem exit0_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results

theorem entry1_x (c : Dev nD) : Region1.aX (V3 m ρ) c = Region0.G (V1 m ρ) c := by
  show StableHlo.after hostOps1 (W2 m ρ c) (Proc.devRef .tc main_v25) = _
  after_results
  exact exit0_h m ρ c
theorem entry1_wl (c : Dev nD) : Region1.aWl (V3 m ρ) c = (m ((c : Thread nD τ).loc main_arg5)) := by
  show StableHlo.after hostOps1 (W2 m ρ c) (Proc.devRef .tc main_arg5) = _
  after_results
  exact exit0_arg5 m ρ c
theorem entry1_wr (c : Dev nD) : Region1.aWr (V3 m ρ) c = (m ((c : Thread nD τ).loc main_arg7)) := by
  show StableHlo.after hostOps1 (W2 m ρ c) (Proc.devRef .tc main_arg7) = _
  after_results
  exact exit0_arg7 m ρ c
theorem entry1_b (c : Dev nD) : Region1.aB (V3 m ρ) c = shapeCast S1x128 (m ((c : Thread nD τ).loc main_arg6)) shapeCasts_S128_S1x128 := by
  show StableHlo.after hostOps1 (W2 m ρ c) (Proc.devRef .tc main_v45) = _
  after_results
  rw [exit0_arg6]
  rfl
set_option maxHeartbeats 1000000 in
/-- The neighbour mean region 1 reads is the host's mean aggregation of the hidden features. -/
theorem entry1_m (c : Dev nD) : Region1.aM (V3 m ρ) c = meanAgg (F := Ideal) (Region0.G (V1 m ρ) c) (m ((c : Thread nD τ).loc main_arg1)) := by
  show StableHlo.after hostOps1 (W2 m ρ c) (Proc.devRef .tc main_v44) = _
  after_results_simp
  rw [exit0_h, exit0_src, exit0_dst]
  unfold meanAgg
  rfl

/-! ## The result -/

/-- The result buffer's contents at the last boundary: the network over the arguments. -/
theorem result_eq (c : Dev nD) : W4 m ρ c (Proc.devRef .tc main_v46)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 5).trans (Region1.final (V3 m ρ) c)).trans ?_
  unfold Region1.G out
  rw [entry1_x, entry1_wl, entry1_wr, entry1_m, entry1_b, row_of_vec, hidden_eq]

/-- The run, read: every weakly fair execution ends with the result array at `out` of the arguments, the arguments
    unchanged. -/
theorem run : θ_run defs (onTc (τ := τ) (main (F := Ideal))) ⟨m, fun _ => 0, ρ⟩ (fun r => ∀ c : Dev nD,
      r.2.mem ((c.tc : Thread nD τ).loc main_v46)
        = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.Result.run_result m ρ)

end Cert.KernelIdeal.Whole

end
-- ==== Proof.RefValue.lean ====
/-
  The idealized reference's result as the same function of the nine arguments.

  The reference computes each layer on the host over whole arrays: two products against transposed weights (each a
  plain sum over the 128 columns on the extended reals), the bias broadcast over the rows, the three added with the
  neighbour term and the bias first; layer 1 is followed by a select between the sum and the slope times the sum on
  the sum's comparison against zero. Its two neighbour means are the same chain of host operations that
  `meanAgg` names, applied to the input features and to the hidden features. Read index by index through the
  generated stage lemmas, the result is `Cert.Sage.out` of the arguments.
-/
import proofs.«180498_j5995774345966_1_alg».proof.Proof.Gen.ReferenceIdeal.Run
import proofs.«180498_j5995774345966_1_alg».proof.Proof.Gen.ReferenceIdeal.Read
import proofs.«180498_j5995774345966_1_alg».proof.Proof.Mean

noncomputable section

open scoped BigOperators

namespace Cert.ReferenceIdeal.RefValue

open Cert.ReferenceIdeal Cert.ReferenceIdeal.Read Cert.Sage
open Idealize.ShloMosaic Idealize.ShloMosaic.TcCoe Idealize.SL.Sem Idealize.ShloMosaic.ValueIdx

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S_, .f32⟩ : BufTy).Contents (Elt Ideal))

/-! ## The two neighbour means are the named chain -/

theorem mean1_eq : val_main_v22 (F := Ideal) x0 x1 = meanAgg (F := Ideal) x0 x1 := rfl

theorem mean2_eq : val_main_v54 (F := Ideal) x0 x1 x2 x3 x4 x8
    = meanAgg (F := Ideal) (val_main_v35 (F := Ideal) x0 x1 x2 x3 x4 x8) x1 := rfl

/-! ## The stages' composed indices at entry (p, q) -/

theorem lidx24 (p : Fin 100000) (q k : Fin 128) : lidx_main_v24 (ix2 p q) k = ix2 p k :=
  funext fun a => Fin.ext (by match a with | ⟨0, _⟩ => rfl | ⟨1, _⟩ => rfl)
theorem ridx24 (p : Fin 100000) (q k : Fin 128) : idx_main_v23 (ridx_main_v24 (ix2 p q) k) = ix2 q k :=
  funext fun a => Fin.ext (by match a with | ⟨0, _⟩ => rfl | ⟨1, _⟩ => rfl)
theorem lidx29 (p : Fin 100000) (q k : Fin 128) : lidx_main_v29 (ix2 p q) k = ix2 p k :=
  funext fun a => Fin.ext (by match a with | ⟨0, _⟩ => rfl | ⟨1, _⟩ => rfl)
theorem ridx29 (p : Fin 100000) (q k : Fin 128) : idx_main_v28 (ridx_main_v29 (ix2 p q) k) = ix2 q k :=
  funext fun a => Fin.ext (by match a with | ⟨0, _⟩ => rfl | ⟨1, _⟩ => rfl)
theorem bidx26 (p : Fin 100000) (q : Fin 128) : idx_main_v25 (idx_main_v26 (ix2 p q)) = ix1 q :=
  funext fun a => Fin.ext (by match a with | ⟨0, _⟩ => rfl)
theorem lidx56 (p : Fin 100000) (q k : Fin 128) : lidx_main_v56 (ix2 p q) k = ix2 p k :=
  funext fun a => Fin.ext (by match a with | ⟨0, _⟩ => rfl | ⟨1, _⟩ => rfl)
theorem ridx56 (p : Fin 100000) (q k : Fin 128) : idx_main_v55 (ridx_main_v56 (ix2 p q) k) = ix2 q k :=
  funext fun a => Fin.ext (by match a with | ⟨0, _⟩ => rfl | ⟨1, _⟩ => rfl)
theorem lidx61 (p : Fin 100000) (q k : Fin 128) : lidx_main_v61 (ix2 p q) k = ix2 p k :=
  funext fun a => Fin.ext (by match a with | ⟨0, _⟩ => rfl | ⟨1, _⟩ => rfl)
theorem ridx61 (p : Fin 100000) (q k : Fin 128) : idx_main_v60 (ridx_main_v61 (ix2 p q) k) = ix2 q k :=
  funext fun a => Fin.ext (by match a with | ⟨0, _⟩ => rfl | ⟨1, _⟩ => rfl)
theorem bidx58 (p : Fin 100000) (q : Fin 128) : idx_main_v57 (idx_main_v58 (ix2 p q)) = ix1 q :=
  funext fun a => Fin.ext (by match a with | ⟨0, _⟩ => rfl)

/-! ## Layer 1 with the rectifier -/

theorem hidden_eq : val_main_v35 (F := Ideal) x0 x1 x2 x3 x4 x8 = hidden x0 x1 x2 x3 x4 x8 := by
  funext i
  obtain ⟨p, q, rfl⟩ : ∃ (p : Fin 100000) (q : Fin 128), i = ix2 p q := ⟨i 0, i 1, eq_ix2 i⟩
  rw [val_main_v35_apply, val_main_v32_apply, val_main_v34_apply, val_main_v30_apply, val_main_v27_apply, val_main_v24_apply,
    val_main_v26_apply, val_main_v25_apply, val_main_v29_apply, val_main_v31_apply, val_main_cst_4_apply, val_main_v33_apply]
  simp only [val_main_v23_apply, val_main_v28_apply, lidx24, ridx24, lidx29, ridx29, bidx26, mean1_eq]
  rfl

/-! ## Layer 2 -/

theorem out_eq : val_main_v62 (F := Ideal) x0 x1 x2 x3 x4 x5 x6 x7 x8 = out x0 x1 x2 x3 x4 x5 x6 x7 x8 := by
  funext i
  obtain ⟨p, q, rfl⟩ : ∃ (p : Fin 100000) (q : Fin 128), i = ix2 p q := ⟨i 0, i 1, eq_ix2 i⟩
  rw [val_main_v62_apply, val_main_v59_apply, val_main_v56_apply, val_main_v58_apply, val_main_v57_apply, val_main_v61_apply]
  simp only [val_main_v55_apply, val_main_v60_apply, lidx56, ridx56, lidx61, ridx61, bidx58, mean2_eq, hidden_eq]
  rfl

/-- The reference run's result term is the network over the arguments. -/
theorem result_eq (m : (ℓ : Loc nD τ sig) → Buf (Elt Ideal) ℓ) (c : Dev nD) :
    Cert.ReferenceIdeal.Value.res_main_v62 (F := Ideal) m c
      = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (val_main_v62_eq m c).trans (out_eq _ _ _ _ _ _ _ _ _)

end Cert.ReferenceIdeal.RefValue

end
-- ==== Proof.lean ====
/-
  A two-layer graph convolution (mean aggregation over in-neighbours, a shared one-slope rectifier after layer 1)
  whose dense part runs in two kernels over 50 row blocks of 2000 nodes, against the same network written with
  whole-array products on the host.

  Both programs compute the neighbour means with the same host operations; they differ only in how each layer's
  linear part is evaluated. On the extended reals a block product accumulated into zeros and a whole-array product
  are the same plain sums over the 128 input columns, a change of float format is the identity, and the two programs
  add the neighbour term, the bias and the root term in the same order, so no law beyond rearranging WHICH rows a
  block holds is needed and the precondition is never opened.

  - `Proof/Spec.lean`: one layer and the rectifier, index by index.
  - `Proof/Mean.lean`: the host's mean aggregation as one named function, and the network `out` of the arguments.
  - `Proof/KernelPay.lean`: the two kernel bodies at one entry of a block.
  - `Proof/KernelRegion0.lean`, `Proof/KernelRegion1.lean`: each region's result array as one function of its entry arrays.
  - `Proof/KernelRun.lean`: the program's run with the result buffer named.
  - `Proof/KernelValue.lean`: the kernel program's result is `out` of the arguments.
  - `Proof/RefValue.lean`: the reference's result is `out` of the arguments.
-/
import proofs.«180498_j5995774345966_1_alg».proof.Defs
import proofs.«180498_j5995774345966_1_alg».proof.Proof.Gen.Kernel
import proofs.«180498_j5995774345966_1_alg».proof.Proof.Gen.Kernel.Skeleton
import proofs.«180498_j5995774345966_1_alg».proof.Proof.Gen.Kernel.Launch
import proofs.«180498_j5995774345966_1_alg».proof.Proof.Gen.Kernel.Points
import proofs.«180498_j5995774345966_1_alg».proof.Proof.Gen.Kernel.Frame
import proofs.«180498_j5995774345966_1_alg».proof.Proof.Gen.KernelIdeal
import proofs.«180498_j5995774345966_1_alg».proof.Proof.Gen.KernelIdeal.Skeleton
import proofs.«180498_j5995774345966_1_alg».proof.Proof.Gen.KernelIdeal.Launch
import proofs.«180498_j5995774345966_1_alg».proof.Proof.Gen.KernelIdeal.Points
import proofs.«180498_j5995774345966_1_alg».proof.Proof.Gen.KernelIdeal.Frame
import proofs.«180498_j5995774345966_1_alg».proof.Proof.Gen.ReferenceIdeal
import proofs.«180498_j5995774345966_1_alg».proof.Proof.Gen.ReferenceIdeal.Run
import proofs.«180498_j5995774345966_1_alg».proof.Proof.Gen.Pre_finite_inputs
import proofs.«180498_j5995774345966_1_alg».proof.Proof.KernelValue
import proofs.«180498_j5995774345966_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both idealized programs end with the network's value `out` of those
    arguments in their result arrays, the arguments unchanged. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.RefValue.result_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
